-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x1 .f32) (main_arg14 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg13
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S64x64 .f32) (main_arg9 : FVec F S64 .f32) (main_arg10 : FVec F S64x64 .f32) (main_arg11 : FVec F S64x64 .f32) (main_arg12 : FVec F S64 .f32) (main_arg13 : FVec F S64x1 .f32) (main_arg14 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x1 .f32) (main_arg14 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x32 .f32) (main_arg1 : IVec S2x1600000 32) (main_arg2 : FVec F S32x64 .f32) (main_arg3 : FVec F S64 .f32) (main_arg4 : FVec F S32x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x1 .f32) (main_arg14 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S1600000x64 : Shape := ⟨2, ![1600000, 64]⟩
abbrev S1x1 : Shape := ⟨2, ![1, 1]⟩
abbrev S5000x1 : Shape := ⟨2, ![5000, 1]⟩

abbrev nBuf : Space → Nat
  | .hbm => 93
  | .vmem => 35
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x32, .f32⟩
  | .hbm, ⟨48, _⟩ => ⟨S_, .f32⟩
  | .hbm, ⟨49, _⟩ => ⟨S100000x32, .f32⟩
  | .hbm, ⟨50, _⟩ => ⟨S1600000x1, .i32⟩
  | .hbm, ⟨51, _⟩ => ⟨S100000x32, .f32⟩
  | .hbm, ⟨52, _⟩ => ⟨S100000x32, .f32⟩
  | .hbm, ⟨53, _⟩ => ⟨S100000x32, .f32⟩
  | .hbm, ⟨54, _⟩ => ⟨S1x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S1x64, .f32⟩
  | .hbm, ⟨91, _⟩ => ⟨S1x1, .f32⟩
  | .hbm, ⟨92, _⟩ => ⟨S100000x1, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x64, .f32⟩
  | .local _ .vmem, ⟨5, _⟩ => ⟨S1x64, .f32⟩
  | .local _ .vmem, ⟨6, _⟩ => ⟨S32x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64x64, .f32⟩
  | .local _ .vmem, ⟨30, _⟩ => ⟨S1x64, .f32⟩
  | .local _ .vmem, ⟨31, _⟩ => ⟨S64x1, .f32⟩
  | .local _ .vmem, ⟨32, _⟩ => ⟨S1x1, .f32⟩
  | .local _ .vmem, ⟨33, _⟩ => ⟨S5000x1, .f32⟩
  | .local _ .vmem, ⟨34, _⟩ => ⟨S5000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_6 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_c_8 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_9 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_10 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v27) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S5000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x32, .f32⟩
  | .hbm, ⟨48, _⟩ => ⟨S_, .f32⟩
  | .hbm, ⟨49, _⟩ => ⟨S100000x32, .f32⟩
  | .hbm, ⟨50, _⟩ => ⟨S1600000x1, .i32⟩
  | .hbm, ⟨51, _⟩ => ⟨S100000x32, .f32⟩
  | .hbm, ⟨52, _⟩ => ⟨S100000x32, .f32⟩
  | .hbm, ⟨53, _⟩ => ⟨S100000x32, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S_, .f32⟩
  | .hbm, ⟨113, _⟩ => ⟨S100000x64, .f32⟩
  | .hbm, ⟨114, _⟩ => ⟨S100000x64, .f32⟩
  | .hbm, ⟨115, _⟩ => ⟨S100000x1, .f32⟩
  | .hbm, ⟨116, _⟩ => ⟨S1x1, .f32⟩
  | .hbm, ⟨117, _⟩ => ⟨S100000x1, .f32⟩
  | .hbm, ⟨118, _⟩ => ⟨S100000x1, .f32⟩
  | .hbm, ⟨119, _⟩ => ⟨S100000x1, .f32⟩
  | .hbm, ⟨120, _⟩ => ⟨S100000x1, .f32⟩
  | .hbm, ⟨121, _⟩ => ⟨S_, .f32⟩
  | .hbm, ⟨122, _⟩ => ⟨S100000x1, .f32⟩
  | .hbm, ⟨123, _⟩ => ⟨S100000x1, .f32⟩
  | .hbm, ⟨124, _⟩ => ⟨S_, .f32⟩
  | .hbm, ⟨125, _⟩ => ⟨S100000x1, .f32⟩
  | .hbm, ⟨126, _⟩ => ⟨S100000x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_6 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call1_cst : Ref sig .tc := ⟨.hbm, 60, rfl⟩
abbrev main_call1_v0 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_c_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call2_cst : Ref sig .tc := ⟨.hbm, 84, rfl⟩
abbrev main_call2_v0 : Ref sig .tc := ⟨.hbm, 85, rfl⟩
abbrev main_v53 : Ref sig .tc := ⟨.hbm, 86, rfl⟩
abbrev main_c_10 : Ref sig .tc := ⟨.hbm, 87, rfl⟩
abbrev main_v54 : Ref sig .tc := ⟨.hbm, 88, rfl⟩
abbrev main_v55 : Ref sig .tc := ⟨.hbm, 89, rfl⟩
abbrev main_c_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_call3_cst : Ref sig .tc := ⟨.hbm, 112, rfl⟩
abbrev main_call3_v0 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_13 : Ref sig .tc := ⟨.hbm, 121, rfl⟩
abbrev main_v83 : Ref sig .tc := ⟨.hbm, 122, rfl⟩
abbrev main_v84 : Ref sig .tc := ⟨.hbm, 123, rfl⟩
abbrev main_cst_14 : Ref sig .tc := ⟨.hbm, 124, rfl⟩
abbrev main_v85 : Ref sig .tc := ⟨.hbm, 125, rfl⟩
abbrev main_v86 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.Layers.lean ====
/-
  The network's steps as whole-array functions, and each dense step read at an entry on the extended reals.

  A node's new features are `max (mean · Wn + b + h · Wr) 0`: `mean` is the average of the features of the node's
  in-neighbours (the sum over the edges that end at the node, times the reciprocal of their number, zero for a node
  no edge ends at), `h` the node's own features, `b` a bias row. The last graph layer has no `max`; the head
  is `σ (max (h · Wp1 + b1) 0 · Wp2 + b2)` with `σ x = 1 / (1 + e^(-x))`.

  The functions are written with the host operations of a plain jnp program (the spelling is the reference
  program's own), for any float type; the bias enters as a one-row matrix. At an entry `(p, q)` every matrix
  product is the sum over `k` of `l (p, k) * r (k, q)`, the bias row contributes `b (0, q)`, and `σ` is the
  extended reals' logistic function.
-/
import proofs.«140905_j59665685676525_1_alg».proof.ReferenceIdeal
import proofs.«140905_j59665685676525_1_alg».proof.Proof.Gen.ReferenceIdeal
import proofs.«140905_j59665685676525_1_alg».proof.Proof.LibPlainDot
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.Sage

open Idealize.ShloMosaic Idealize.ShloMosaic.ValueIdx Cert.ReferenceIdeal Cert.ReferenceIdeal.Gen

variable {F : FTy → Type} [FloatOps F]

/-! ## The edge list -/

/-- The node every edge ends at. -/
def dstRow (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The same as a column of indices. -/
def dstIdx (e : (⟨S2x1600000, .i32⟩ : BufTy).Contents (Elt F)) : (⟨S1600000x1, .i32⟩ : BufTy).Contents (Elt F) :=
  broadcastInDim S1600000x1 ![0] bcast_S1600000_S1600000x1_0 (dstRow (F := F) e)

/-- The node every edge starts at. -/
def srcRow (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The same as a column of indices, a negative one counted from the end. -/
def srcIdx (e : (⟨S2x1600000, .i32⟩ : BufTy).Contents (Elt F)) : (⟨S1600000x1, .i32⟩ : BufTy).Contents (Elt F) :=
  broadcastInDim S1600000x1 ![0] bcast_S1600000_S1600000x1_0 (select (cmpi .slt (srcRow (F := F) e) (broadcastInDim S1600000 ![] bcast_S_S1600000 (constantI S_ 32 0#32))) (addi (srcRow (F := F) e) (broadcastInDim S1600000 ![] bcast_S_S1600000 (constantI S_ 32 100000#32))) (srcRow (F := F) e))

/-- How many edges end at each node. -/
def degree (e : (⟨S2x1600000, .i32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32)) (dstIdx (F := F) e) (broadcastInDim S1600000 ![] bcast_S_S1600000 (constant S_ .f32 0x3F800000#32))

/-- The reciprocal of that number where it is positive, zero elsewhere, as a column. -/
def invDegree (e : (⟨S2x1600000, .i32⟩ : BufTy).Contents (Elt F)) : (⟨S100000x1, .f32⟩ : BufTy).Contents (Elt F) :=
  broadcastInDim S100000x1 ![0] bcast_S100000_S100000x1_0 (select (cmpf .ogt (degree (F := F) e) (broadcastInDim S100000 ![] bcast_S_S100000 (constant S_ .f32 0x00000000#32))) (Host.divf (broadcastInDim S100000 ![] bcast_S_S100000 (constant S_ .f32 0x3F800000#32)) (maximumf (degree (F := F) e) (broadcastInDim S100000 ![] bcast_S_S100000 (constant S_ .f32 0x3F800000#32)))) (broadcastInDim S100000 ![] bcast_S_S100000 (id (constant S_ .f32 0x00000000#32))))

/-! ## The neighbours' mean -/

/-- The mean of the in-neighbours' features, 32 wide. -/
def mean32 (e : (⟨S2x1600000, .i32⟩ : BufTy).Contents (Elt F)) (h : (⟨S100000x32, .f32⟩ : BufTy).Contents (Elt F)) : (⟨S100000x32, .f32⟩ : BufTy).Contents (Elt F) :=
  mulf (Host.scatterAdd scatter_S100000x32_S1600000x1_S1600000x32_1_0_0_1 (broadcastInDim S100000x32 ![] bcast_S_S100000x32 (constant S_ .f32 0x00000000#32)) (dstIdx (F := F) e) (Host.gather gather_S100000x32_S1600000x1_S1600000x32_1_0_n_n_0_1_132 h (srcIdx (F := F) e))) (broadcastInDim S100000x32 ![0, 1] bcast_S100000x1_S100000x32_0_1 (invDegree (F := F) e))

/-- The mean of the in-neighbours' features, 64 wide. -/
def mean64 (e : (⟨S2x1600000, .i32⟩ : BufTy).Contents (Elt F)) (h : (⟨S100000x64, .f32⟩ : BufTy).Contents (Elt F)) : (⟨S100000x64, .f32⟩ : BufTy).Contents (Elt F) :=
  mulf (Host.scatterAdd scatter_S100000x64_S1600000x1_S1600000x64_1_0_0_1 (broadcastInDim S100000x64 ![] bcast_S_S100000x64 (constant S_ .f32 0x00000000#32)) (dstIdx (F := F) e) (Host.gather gather_S100000x64_S1600000x1_S1600000x64_1_0_n_n_0_1_164 h (srcIdx (F := F) e))) (broadcastInDim S100000x64 ![0, 1] bcast_S100000x1_S100000x64_0_1 (invDegree (F := F) e))

/-! ## The dense steps -/

/-- A bias vector as a one-row matrix. -/
def row64 (b : (⟨S64, .f32⟩ : BufTy).Contents (Elt F)) : (⟨S1x64, .f32⟩ : BufTy).Contents (Elt F) :=
  broadcastInDim S1x64 ![1] bcast_S64_S1x64_1 b

/-- The head's scalar bias as a one-by-one matrix. -/
def row1 (b : (⟨S1, .f32⟩ : BufTy).Contents (Elt F)) : (⟨S1x1, .f32⟩ : BufTy).Contents (Elt F) :=
  broadcastInDim S1x1 ![1] bcast_S1_S1x1_1 b

/-- `a · Wn + b + h · Wr` from 32 features to 64. -/
def lin32 (a h : (⟨S100000x32, .f32⟩ : BufTy).Contents (Elt F)) (wn : (⟨S32x64, .f32⟩ : BufTy).Contents (Elt F)) (b : (⟨S1x64, .f32⟩ : BufTy).Contents (Elt F)) (wr : (⟨S32x64, .f32⟩ : BufTy).Contents (Elt F)) : (⟨S100000x64, .f32⟩ : BufTy).Contents (Elt F) :=
  addf (addf (Host.dotGeneral dot_S100000x32_S32x64_S100000x64_1_0_0_1_n_n none a wn) (broadcastInDim S100000x64 ![0, 1] bcast_S1x64_S100000x64_0_1 b)) (Host.dotGeneral dot_S100000x32_S32x64_S100000x64_1_0_0_1_n_n none h wr)

/-- `a · Wn + b + h · Wr` from 64 features to 64. -/
def lin64 (a h : (⟨S100000x64, .f32⟩ : BufTy).Contents (Elt F)) (wn : (⟨S64x64, .f32⟩ : BufTy).Contents (Elt F)) (b : (⟨S1x64, .f32⟩ : BufTy).Contents (Elt F)) (wr : (⟨S64x64, .f32⟩ : BufTy).Contents (Elt F)) : (⟨S100000x64, .f32⟩ : BufTy).Contents (Elt F) :=
  addf (addf (Host.dotGeneral dot_S100000x64_S64x64_S100000x64_1_0_0_1_n_n none a wn) (broadcastInDim S100000x64 ![0, 1] bcast_S1x64_S100000x64_0_1 b)) (Host.dotGeneral dot_S100000x64_S64x64_S100000x64_1_0_0_1_n_n none h wr)

/-- `max x 0`, entry by entry. -/
def relu64 (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- The head: `σ (max (h · Wp1 + b1) 0 · Wp2 + b2)`, the logistic function spelt `1 / (1 + e^(-x))`. -/
def head (h : (⟨S100000x64, .f32⟩ : BufTy).Contents (Elt F)) (wp1 : (⟨S64x64, .f32⟩ : BufTy).Contents (Elt F)) (b1 : (⟨S1x64, .f32⟩ : BufTy).Contents (Elt F)) (wp2 : (⟨S64x1, .f32⟩ : BufTy).Contents (Elt F)) (b2 : (⟨S1x1, .f32⟩ : BufTy).Contents (Elt F)) : (⟨S100000x1, .f32⟩ : BufTy).Contents (Elt F) :=
  Host.divf (broadcastInDim S100000x1 ![] bcast_S_S100000x1 (constant S_ .f32 0x3F800000#32)) (addf (broadcastInDim S100000x1 ![] bcast_S_S100000x1 (constant S_ .f32 0x3F800000#32)) (Host.exp (Host.negf (addf (Host.dotGeneral dot_S100000x64_S64x1_S100000x1_1_0_0_1_n_n none (maximumf (addf (Host.dotGeneral dot_S100000x64_S64x64_S100000x64_1_0_0_1_n_n none h wp1) (broadcastInDim S100000x64 ![0, 1] bcast_S1x64_S100000x64_0_1 b1)) (broadcastInDim S100000x64 ![] bcast_S_S100000x64 (constant S_ .f32 0x00000000#32))) wp2) (broadcastInDim S100000x1 ![0, 1] bcast_S1x1_S100000x1_0_1 b2)))))

/-! ## The whole network -/

/-- The first graph layer. -/
def hidden1 (x : (⟨S100000x32, .f32⟩ : BufTy).Contents (Elt F)) (e : (⟨S2x1600000, .i32⟩ : BufTy).Contents (Elt F))
    (wn0 : (⟨S32x64, .f32⟩ : BufTy).Contents (Elt F)) (bn0 : (⟨S64, .f32⟩ : BufTy).Contents (Elt F)) (wr0 : (⟨S32x64, .f32⟩ : BufTy).Contents (Elt F)) : (⟨S100000x64, .f32⟩ : BufTy).Contents (Elt F) :=
  relu64 (F := F) (lin32 (F := F) (mean32 (F := F) e x) x wn0 (row64 (F := F) bn0) wr0)

/-- A graph layer on 64 features, before its `max`. -/
def step64 (h : (⟨S100000x64, .f32⟩ : BufTy).Contents (Elt F)) (e : (⟨S2x1600000, .i32⟩ : BufTy).Contents (Elt F))
    (wn : (⟨S64x64, .f32⟩ : BufTy).Contents (Elt F)) (b : (⟨S64, .f32⟩ : BufTy).Contents (Elt F)) (wr : (⟨S64x64, .f32⟩ : BufTy).Contents (Elt F)) : (⟨S100000x64, .f32⟩ : BufTy).Contents (Elt F) :=
  lin64 (F := F) (mean64 (F := F) e h) h wn (row64 (F := F) b) wr

/-- Three graph layers and the head, from the node features `x`, the edge list `e` and the weights. -/
def net (x : (⟨S100000x32, .f32⟩ : BufTy).Contents (Elt F)) (e : (⟨S2x1600000, .i32⟩ : BufTy).Contents (Elt F))
    (wn0 : (⟨S32x64, .f32⟩ : BufTy).Contents (Elt F)) (bn0 : (⟨S64, .f32⟩ : BufTy).Contents (Elt F)) (wr0 : (⟨S32x64, .f32⟩ : BufTy).Contents (Elt F))
    (wn1 : (⟨S64x64, .f32⟩ : BufTy).Contents (Elt F)) (bn1 : (⟨S64, .f32⟩ : BufTy).Contents (Elt F)) (wr1 : (⟨S64x64, .f32⟩ : BufTy).Contents (Elt F))
    (wn2 : (⟨S64x64, .f32⟩ : BufTy).Contents (Elt F)) (bn2 : (⟨S64, .f32⟩ : BufTy).Contents (Elt F)) (wr2 : (⟨S64x64, .f32⟩ : BufTy).Contents (Elt F))
    (wp1 : (⟨S64x64, .f32⟩ : BufTy).Contents (Elt F)) (bp1 : (⟨S64, .f32⟩ : BufTy).Contents (Elt F)) (wp2 : (⟨S64x1, .f32⟩ : BufTy).Contents (Elt F)) (bp2 : (⟨S1, .f32⟩ : BufTy).Contents (Elt F)) :
    (⟨S100000x1, .f32⟩ : BufTy).Contents (Elt F) :=
  head (F := F)
    (step64 (F := F) (relu64 (F := F) (step64 (F := F) (hidden1 (F := F) x e wn0 bn0 wr0) e wn1 bn1 wr1)) e wn2 bn2 wr2)
    wp1 (row64 (F := F) bp1) wp2 (row1 (F := F) bp2)

/-! ## A reshaped bias is its one-row matrix -/

/-- Reshaping 64 numbers into one row of 64 and broadcasting them along a new leading axis of extent one are the same. -/
theorem row64_eq_reshape (b : (⟨S64, .f32⟩ : BufTy).Contents (Elt F)) (h : S64.ShapeCasts S1x64) :
    shapeCast S1x64 b h = row64 (F := F) b := by
  funext i
  obtain ⟨u, q, rfl⟩ : ∃ (u : Fin 1) (q : Fin 64), i = ix2 u q := ⟨i 0, i 1, eq_ix2 i⟩
  rw [shapeCast_a_1a_apply]
  refine (broadcastInDim_apply _ _ b (ix2 u q) (ix1 q) fun a => ?_).symm
  match a with
  | ⟨0, _⟩ => rfl

/-- The same for the head's single bias. -/
theorem row1_eq_reshape (b : (⟨S1, .f32⟩ : BufTy).Contents (Elt F)) (h : S1.ShapeCasts S1x1) :
    shapeCast S1x1 b h = row1 (F := F) b := by
  funext i
  obtain ⟨u, q, rfl⟩ : ∃ (u : Fin 1) (q : Fin 1), i = ix2 u q := ⟨i 0, i 1, eq_ix2 i⟩
  rw [shapeCast_a_1a_apply]
  refine (broadcastInDim_apply _ _ b (ix2 u q) (ix1 q) fun a => ?_).symm
  have hq : q.val = 0 := by omega
  match a with
  | ⟨0, _⟩ => show q.val = if (1 : ℕ) = 1 then 0 else _; rw [if_pos rfl]; exact hq

/-! ## The dense steps at an entry, on the extended reals -/

/-- A bias row replicated down 100000 rows, at an entry. -/
theorem biasRows_apply (b : FVec Ideal S1x64 .f32) (p : Fin 100000) (q : Fin 64) :
    broadcastInDim S100000x64 ![0, 1] bcast_S1x64_S100000x64_0_1 b (ix2 p q) = b (ix2 (0 : Fin 1) q) := by
  refine broadcastInDim_apply _ _ b (ix2 p q) (ix2 (0 : Fin 1) q) fun a => ?_
  match a with
  | ⟨0, _⟩ => rfl
  | ⟨1, _⟩ => rfl

/-- The head's one-by-one bias replicated down 100000 rows, at an entry. -/
theorem biasOne_apply (b : FVec Ideal S1x1 .f32) (p : Fin 100000) (q : Fin 1) :
    broadcastInDim S100000x1 ![0, 1] bcast_S1x1_S100000x1_0_1 b (ix2 p q) = b (ix2 (0 : Fin 1) q) := by
  refine broadcastInDim_apply _ _ b (ix2 p q) (ix2 (0 : Fin 1) q) fun a => ?_
  have hq : q.val = 0 := by omega
  match a with
  | ⟨0, _⟩ => rfl
  | ⟨1, _⟩ => show q.val = if (1 : ℕ) = 1 then 0 else _; rw [if_pos rfl]; exact hq

/-- A splat of the zero word reads zero. -/
theorem zeros_apply (i : S100000x64.Idx) :
    (broadcastInDim S100000x64 ![] bcast_S_S100000x64 (constant (F := Ideal) S_ .f32 0x00000000#32) : FVec Ideal S100000x64 .f32) i = 0 :=
  (broadcastInDim_apply _ _ (constant (F := Ideal) S_ .f32 0x00000000#32) i ix0 fun a => a.elim0).trans Ideal.ofBits_zero_f32

/-- A splat of the word of one reads one. -/
theorem ones_apply (i : S100000x1.Idx) :
    (broadcastInDim S100000x1 ![] bcast_S_S100000x1 (constant (F := Ideal) S_ .f32 0x3F800000#32) : FVec Ideal S100000x1 .f32) i = 1 :=
  (broadcastInDim_apply _ _ (constant (F := Ideal) S_ .f32 0x3F800000#32) i ix0 fun a => a.elim0).trans Ideal.ofBits_one_f32

theorem lin32_apply (a h : FVec Ideal S100000x32 .f32) (wn : FVec Ideal S32x64 .f32) (b : FVec Ideal S1x64 .f32) (wr : FVec Ideal S32x64 .f32)
    (p : Fin 100000) (q : Fin 64) :
    lin32 (F := Ideal) a h wn b wr (ix2 p q)
      = (∑ k : Fin 32, a (ix2 p k) * wn (ix2 k q) + b (ix2 (0 : Fin 1) q)) + ∑ k : Fin 32, h (ix2 p k) * wr (ix2 k q) := by
  show (FloatOps.dotGeneral dot_S100000x32_S32x64_S100000x64_1_0_0_1_n_n none .single a wn (ix2 p q)
      + broadcastInDim S100000x64 ![0, 1] bcast_S1x64_S100000x64_0_1 b (ix2 p q))
      + FloatOps.dotGeneral dot_S100000x32_S32x64_S100000x64_1_0_0_1_n_n none .single h wr (ix2 p q) = _
  rw [Cert.PlainDot.dotGeneral_apply dot_S100000x32_S32x64_S100000x64_1_0_0_1_n_n rfl rfl rfl rfl rfl rfl none .single a wn p q,
    Cert.PlainDot.dotGeneral_apply dot_S100000x32_S32x64_S100000x64_1_0_0_1_n_n rfl rfl rfl rfl rfl rfl none .single h wr p q,
    biasRows_apply]

theorem lin64_apply (a h : FVec Ideal S100000x64 .f32) (wn : FVec Ideal S64x64 .f32) (b : FVec Ideal S1x64 .f32) (wr : FVec Ideal S64x64 .f32)
    (p : Fin 100000) (q : Fin 64) :
    lin64 (F := Ideal) a h wn b wr (ix2 p q)
      = (∑ k : Fin 64, a (ix2 p k) * wn (ix2 k q) + b (ix2 (0 : Fin 1) q)) + ∑ k : Fin 64, h (ix2 p k) * wr (ix2 k q) := by
  show (FloatOps.dotGeneral dot_S100000x64_S64x64_S100000x64_1_0_0_1_n_n none .single a wn (ix2 p q)
      + broadcastInDim S100000x64 ![0, 1] bcast_S1x64_S100000x64_0_1 b (ix2 p q))
      + FloatOps.dotGeneral dot_S100000x64_S64x64_S100000x64_1_0_0_1_n_n none .single h wr (ix2 p q) = _
  rw [Cert.PlainDot.dotGeneral_apply dot_S100000x64_S64x64_S100000x64_1_0_0_1_n_n rfl rfl rfl rfl rfl rfl none .single a wn p q,
    Cert.PlainDot.dotGeneral_apply dot_S100000x64_S64x64_S100000x64_1_0_0_1_n_n rfl rfl rfl rfl rfl rfl none .single h wr p q,
    biasRows_apply]

theorem relu64_apply (x : FVec Ideal S100000x64 .f32) (i : S100000x64.Idx) : relu64 (F := Ideal) x i = max (x i) 0 := by
  show max (x i) (broadcastInDim S100000x64 ![] bcast_S_S100000x64 (constant (F := Ideal) S_ .f32 0x00000000#32) i) = _
  rw [zeros_apply]

/-- The head at an entry: the logistic function of `∑ k, max (∑ j, h (p, j) * Wp1 (j, k) + b1 (0, k)) 0 * Wp2 (k, q) + b2 (0, q)`. -/
theorem head_apply (h : FVec Ideal S100000x64 .f32) (wp1 : FVec Ideal S64x64 .f32) (b1 : FVec Ideal S1x64 .f32) (wp2 : FVec Ideal S64x1 .f32)
    (b2 : FVec Ideal S1x1 .f32) (p : Fin 100000) (q : Fin 1) :
    head (F := Ideal) h wp1 b1 wp2 b2 (ix2 p q)
      = Ideal.logistic (∑ k : Fin 64, max (∑ j : Fin 64, h (ix2 p j) * wp1 (ix2 j k) + b1 (ix2 (0 : Fin 1) k)) 0 * wp2 (ix2 k q)
          + b2 (ix2 (0 : Fin 1) q)) := by
  have hhid : ∀ k : Fin 64,
      (maximumf (addf (Host.dotGeneral dot_S100000x64_S64x64_S100000x64_1_0_0_1_n_n none h wp1) (broadcastInDim S100000x64 ![0, 1] bcast_S1x64_S100000x64_0_1 b1)) (broadcastInDim S100000x64 ![] bcast_S_S100000x64 (constant (F := Ideal) S_ .f32 0x00000000#32)) : FVec Ideal S100000x64 .f32) (ix2 p k)
        = max (∑ j : Fin 64, h (ix2 p j) * wp1 (ix2 j k) + b1 (ix2 (0 : Fin 1) k)) 0 := by
    intro k
    show max (FloatOps.dotGeneral dot_S100000x64_S64x64_S100000x64_1_0_0_1_n_n none .single h wp1 (ix2 p k)
        + broadcastInDim S100000x64 ![0, 1] bcast_S1x64_S100000x64_0_1 b1 (ix2 p k))
        (broadcastInDim S100000x64 ![] bcast_S_S100000x64 (constant (F := Ideal) S_ .f32 0x00000000#32) (ix2 p k)) = _
    rw [zeros_apply, biasRows_apply,
      Cert.PlainDot.dotGeneral_apply dot_S100000x64_S64x64_S100000x64_1_0_0_1_n_n rfl rfl rfl rfl rfl rfl none .single h wp1 p k]
  show Ideal.div (broadcastInDim S100000x1 ![] bcast_S_S100000x1 (constant (F := Ideal) S_ .f32 0x3F800000#32) (ix2 p q))
      (broadcastInDim S100000x1 ![] bcast_S_S100000x1 (constant (F := Ideal) S_ .f32 0x3F800000#32) (ix2 p q)
        + Ideal.exp (-(FloatOps.dotGeneral dot_S100000x64_S64x1_S100000x1_1_0_0_1_n_n none .single
            (maximumf (addf (Host.dotGeneral dot_S100000x64_S64x64_S100000x64_1_0_0_1_n_n none h wp1) (broadcastInDim S100000x64 ![0, 1] bcast_S1x64_S100000x64_0_1 b1)) (broadcastInDim S100000x64 ![] bcast_S_S100000x64 (constant (F := Ideal) S_ .f32 0x00000000#32)))
            wp2 (ix2 p q)
          + broadcastInDim S100000x1 ![0, 1] bcast_S1x1_S100000x1_0_1 b2 (ix2 p q)))) = _
  rw [ones_apply, biasOne_apply,
    Cert.PlainDot.dotGeneral_apply dot_S100000x64_S64x1_S100000x1_1_0_0_1_n_n rfl rfl rfl rfl rfl rfl none .single _ wp2 p q]
  simp only [hhid]
  rfl

end Cert.Sage

end
-- ==== Proof.Region0.lean ====
/-
  The first graph layer's kernel, read as a whole-array function on the extended reals.

  The grid has 20 points; point `t` works on rows `5000 t … 5000 t + 4999`. At an entry `(p, q)` of its block the body
  stores `max ((∑ k, mean (p, k) * Wn (k, q) + ∑ k, h (p, k) * Wr (k, q)) + b (0, q)) 0`: the two matrix products go into
  zero accumulators and the changes of float format are the identity. The layer function has the bias between the two
  products; addition of extended reals is commutative and associative, so the two agree. The twenty row blocks tile the
  100000 rows, so after the region the output array is the layer function of the arrays the region found.
-/
import proofs.«140905_j59665685676525_1_alg».proof.Proof.Gen.KernelIdeal.Frame
import proofs.«140905_j59665685676525_1_alg».proof.Proof.Layers
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: both products as sums, the bias row's entry, the maximum with zero. -/
theorem pay_apply (x0 x1 : Vec Ideal S5000x32 .f32) (x2 x4 : Vec Ideal S32x64 .f32) (x3 : Vec Ideal S1x64 .f32) (p : Fin 5000) (q : Fin 64) :
    k0_pay1 (F := Ideal) x0 x1 x2 x4 x3 (ix2 p q)
      = max ((∑ k : Fin 32, x0 (ix2 p k) * x2 (ix2 k q) + ∑ k : Fin 32, x1 (ix2 p k) * x4 (ix2 k q)) + x3 (ix2 (0 : Fin 1) q)) 0 := by
  unfold k0_pay1
  simp only [matmul, maximumf_apply, addf_apply, broadcast_apply]
  rw [Cert.PlainDot.matmul_zero_apply dot_S5000x32_S32x64_S5000x64_1_0_0_1_n_n rfl rfl rfl rfl rfl rfl none
      (truncf .bf16 (shapeCast S5000x32 x0 shapeCasts_S5000x32_S5000x32) bitsLt_bf16_f32) (truncf .bf16 x2 bitsLt_bf16_f32) p q,
    Cert.PlainDot.matmul_zero_apply dot_S5000x32_S32x64_S5000x64_1_0_0_1_n_n rfl rfl rfl rfl rfl rfl none
      (truncf .bf16 x1 bitsLt_bf16_f32) (truncf .bf16 x4 bitsLt_bf16_f32) p q,
    broadcastTo_1b_ab_apply]
  simp only [truncf_apply, shapeCast_self, Ideal.ofBits_def, Ideal.ofBits_zero_f32]

/-- The grid has 20 points. -/
theorem lt20 (t : Fin cfg0.N) : t.val < 20 := by
  have h := t.isLt
  have hN : cfg0.N = 20 := N_0
  omega

/-- The printed index maps over the grid: the three row-blocked windows are at block row `t`, block column 0; the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `5000 t + p` of the array. -/
def rowOf (t : Fin cfg0.N) (p : Fin 5000) : Fin 100000 := ⟨5000 * t.val + p.val, by have := lt20 t; omega⟩

/-- The block of the neighbours' means at point `t` is rows `5000 t …` of its array. -/
theorem blk0_apply (c : Dev nD) (t : Fin cfg0.N) (x : S5000x32.Idx) (k : S100000x32.Idx)
    (hk0 : (k 0).val = 5000 * t.val + (x 0).val) (hk1 : (k 1).val = (x 1).val) :
    (iblk0 V c 0 t : Vec Ideal S5000x32 .f32) x = (V c main_v27 : S100000x32.Idx → Elt Ideal .f32) k := by
  obtain ⟨e0, e1, -⟩ := idx_facts t
  unfold iblk0
  rw [View.read_apply]
  show V c main_v27 _ = V c main_v27 _
  congr 1
  funext a
  apply Fin.ext
  match a with
  | ⟨0, _⟩ => show win0_0.index t 0 * 5000 + 1 * (x 0).val = (k 0).val; rw [e0, hk0]; omega
  | ⟨1, _⟩ => show win0_0.index t 1 * 32 + 1 * (x 1).val = (k 1).val; rw [e1, hk1]; omega

/-- The block of the nodes' own features at point `t` is rows `5000 t …` of its array. -/
theorem blk1_apply (c : Dev nD) (t : Fin cfg0.N) (x : S5000x32.Idx) (k : S100000x32.Idx)
    (hk0 : (k 0).val = 5000 * t.val + (x 0).val) (hk1 : (k 1).val = (x 1).val) :
    (iblk0 V c 1 t : Vec Ideal S5000x32 .f32) x = (V c main_arg0 : S100000x32.Idx → Elt Ideal .f32) k := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 5000 + 1 * (x 0).val = (k 0).val; rw [e0, hk0]; omega
  | ⟨1, _⟩ => show win0_1.index t 1 * 32 + 1 * (x 1).val = (k 1).val; rw [e1, hk1]; omega

/-- The neighbour weights' block is the whole matrix. -/
theorem blk2_apply (c : Dev nD) (t : Fin cfg0.N) (x : S32x64.Idx) :
    (iblk0 V c 2 t : Vec Ideal S32x64 .f32) x = (V c main_arg2 : S32x64.Idx → Elt Ideal .f32) x := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t 0 * 32 + 1 * (x 0).val = (x 0).val; rw [e0]; omega
  | ⟨1, _⟩ => show win0_2.index t 1 * 64 + 1 * (x 1).val = (x 1).val; rw [e1]; omega

/-- The bias row's block is the whole row. -/
theorem blk3_apply (c : Dev nD) (t : Fin cfg0.N) (x : S1x64.Idx) :
    (iblk0 V c 3 t : Vec Ideal S1x64 .f32) x = (V c main_v28 : S1x64.Idx → Elt Ideal .f32) x := by
  obtain ⟨-, -, -, -, -, -, e0, e1, -⟩ := idx_facts t
  unfold iblk0
  rw [View.read_apply]
  show V c main_v28 _ = V c main_v28 _
  congr 1
  funext a
  apply Fin.ext
  match a with
  | ⟨0, _⟩ => show win0_3.index t 0 * 1 + 1 * (x 0).val = (x 0).val; rw [e0]; omega
  | ⟨1, _⟩ => show win0_3.index t 1 * 64 + 1 * (x 1).val = (x 1).val; rw [e1]; omega

/-- The root weights' block is the whole matrix. -/
theorem blk4_apply (c : Dev nD) (t : Fin cfg0.N) (x : S32x64.Idx) :
    (iblk0 V c 4 t : Vec Ideal S32x64 .f32) x = (V c main_arg4 : S32x64.Idx → Elt Ideal .f32) x := by
  obtain ⟨-, -, -, -, -, -, -, -, e0, e1, -⟩ := idx_facts t
  unfold iblk0
  rw [View.read_apply]
  show V c main_arg4 _ = V c main_arg4 _
  congr 1
  funext a
  apply Fin.ext
  match a with
  | ⟨0, _⟩ => show win0_4.index t 0 * 32 + 1 * (x 0).val = (x 0).val; rw [e0]; omega
  | ⟨1, _⟩ => show win0_4.index t 1 * 64 + 1 * (x 1).val = (x 1).val; rw [e1]; omega

/-- The layer's output as one function of the arrays the region finds. -/
abbrev layer (c : Dev nD) : S100000x64.Idx → Elt Ideal .f32 :=
  Cert.Sage.relu64 (F := Ideal) (Cert.Sage.lin32 (F := Ideal) (V c main_v27) (V c main_arg0) (V c main_arg2) (V c main_v28) (V c main_arg4))

/-- The body's stored value at an entry of point `t`'s block is the layer function at that row of the array: the bias moves
    between the two products, which addition's commutativity and associativity allow. -/
theorem point_eq (c : Dev nD) (t : Fin cfg0.N) (p : Fin 5000) (q : Fin 64) :
    k0_pay1 (F := Ideal) (iblk0 V c 0 t) (iblk0 V c 1 t) (iblk0 V c 2 t) (iblk0 V c 4 t) (iblk0 V c 3 t) (ix2 p q)
      = layer V c (ix2 (rowOf t p) q) := by
  have h0 : ∀ k : Fin 32, (iblk0 V c 0 t : Vec Ideal S5000x32 .f32) (ix2 p k) = (V c main_v27 : S100000x32.Idx → Elt Ideal .f32) (ix2 (rowOf t p) k) :=
    fun k => blk0_apply V c t (ix2 p k) (ix2 (rowOf t p) k) rfl rfl
  have h1 : ∀ k : Fin 32, (iblk0 V c 1 t : Vec Ideal S5000x32 .f32) (ix2 p k) = (V c main_arg0 : S100000x32.Idx → Elt Ideal .f32) (ix2 (rowOf t p) k) :=
    fun k => blk1_apply V c t (ix2 p k) (ix2 (rowOf t p) k) rfl rfl
  rw [pay_apply]
  show _ = Cert.Sage.relu64 (F := Ideal) _ (ix2 (rowOf t p) q)
  rw [Cert.Sage.relu64_apply, Cert.Sage.lin32_apply, add_right_comm]
  simp only [h0, h1, blk2_apply, blk3_apply, blk4_apply]

/-- What point `t` writes back is block `t` of the layer function. -/
theorem flushed_eq (c : Dev nD) (t : Fin cfg0.N) :
    (dat0 V c).flushed 5 t = ((cfg0.win 5).blk t).view.read (Elt Ideal) (layer V c) := by
  obtain ⟨-, -, -, -, -, -, -, -, -, -, e0, e1⟩ := idx_facts t
  show (cfg0.win 5).cut (grid0.coords t) ((dat0 V c).after 5 t) = _
  rw [after0_5]
  unfold out0_5
  rw [View.canon_unit_zero hz]
  simp only [View.ld_unit_zero (S := S5000x32) hz, View.ld_unit_zero (S := S32x64) hz, View.ld_unit_zero (S := S1x64) hz]
  funext j
  show k0_pay1 (F := Ideal) (iblk0 V c 0 t) (iblk0 V c 1 t) (iblk0 V c 2 t) (iblk0 V c 4 t) (iblk0 V c 3 t) j
    = layer V c (((cfg0.win 5).blk t).view.emb j)
  have hemb : ((cfg0.win 5).blk t).view.emb j = ix2 (rowOf t (j 0)) (j 1) := by
    funext a
    apply Fin.ext
    match a with
    | ⟨0, _⟩ => show win0_5.index t 0 * 5000 + 1 * (j 0).val = 5000 * t.val + (j 0).val; rw [e0]; omega
    | ⟨1, _⟩ => show win0_5.index t 1 * 64 + 1 * (j 1).val = (j 1).val; rw [e1]; omega
  rw [hemb]
  exact (congrArg _ (eq_ix2 j)).trans (point_eq V c t (j 0) (j 1))

/-- An index of the array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v29).slice (win0_5.rect t)).set ↔ _
  rw [View.set_slice_whole, Rect.mem_set_unit]
  exact Iff.rfl

/-- Every row is in the block of the point `row / 5000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by omega⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0]; show (i 0).val / 5000 * 5000 ≤ _ ∧ _ < (i 0).val / 5000 * 5000 + 5000; omega
  | ⟨1, _⟩ => show win0_5.index t (1 : Fin 2) * 64 ≤ (i 1).val ∧ (i 1).val < win0_5.index t (1 : Fin 2) * 64 + 64; rw [e1]; omega

/-- After the region the output array is the layer function of the arrays the region found. -/
theorem final (c : Dev nD) : (dat0 V c).arrAt 5 cfg0.N = layer V c :=
  (dat0 V c).arrAt_eq_of_cover 5 (layer V c) (fun t _ => flushed_eq V c t) cover

end Cert.KernelIdeal.Region0

end
-- ==== Proof.Region1.lean ====
/-
  The second graph layer's kernel, read as a whole-array function on the extended reals.

  The grid has 20 points; point `t` works on rows `5000 t … 5000 t + 4999`. At an entry `(p, q)` of its block the body
  stores `max ((∑ k, mean (p, k) * Wn (k, q) + ∑ k, h (p, k) * Wr (k, q)) + b (0, q)) 0` over 64 features: the two matrix
  products go into zero accumulators and the changes of float format are the identity. The layer function has the bias
  between the two products; addition of extended reals is commutative and associative, so the two agree. The twenty row
  blocks tile the 100000 rows, so after the region the output array is the layer function of the arrays the region found.
-/
import proofs.«140905_j59665685676525_1_alg».proof.Proof.Gen.KernelIdeal.Frame
import proofs.«140905_j59665685676525_1_alg».proof.Proof.Layers
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: both products as sums, the bias row's entry, the maximum with zero. -/
theorem pay_apply (x0 x1 : Vec Ideal S5000x64 .f32) (x2 x4 : Vec Ideal S64x64 .f32) (x3 : Vec Ideal S1x64 .f32) (p : Fin 5000) (q : Fin 64) :
    k1_pay1 (F := Ideal) x0 x1 x2 x4 x3 (ix2 p q)
      = max ((∑ k : Fin 64, x0 (ix2 p k) * x2 (ix2 k q) + ∑ k : Fin 64, x1 (ix2 p k) * x4 (ix2 k q)) + x3 (ix2 (0 : Fin 1) q)) 0 := by
  unfold k1_pay1
  simp only [matmul, maximumf_apply, addf_apply, broadcast_apply]
  rw [Cert.PlainDot.matmul_zero_apply dot_S5000x64_S64x64_S5000x64_1_0_0_1_n_n rfl rfl rfl rfl rfl rfl none
      (truncf .bf16 (shapeCast S5000x64 x0 shapeCasts_S5000x64_S5000x64) bitsLt_bf16_f32) (truncf .bf16 x2 bitsLt_bf16_f32) p q,
    Cert.PlainDot.matmul_zero_apply dot_S5000x64_S64x64_S5000x64_1_0_0_1_n_n rfl rfl rfl rfl rfl rfl none
      (truncf .bf16 (shapeCast S5000x64 x1 shapeCasts_S5000x64_S5000x64) bitsLt_bf16_f32) (truncf .bf16 x4 bitsLt_bf16_f32) p q,
    broadcastTo_1b_ab_apply]
  simp only [truncf_apply, shapeCast_self, Ideal.ofBits_def, Ideal.ofBits_zero_f32]

/-- The grid has 20 points. -/
theorem lt20 (t : Fin cfg1.N) : t.val < 20 := by
  have h := t.isLt
  have hN : cfg1.N = 20 := N_1
  omega

/-- The printed index maps over the grid: the three row-blocked windows are at block row `t`, block column 0; the weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row `5000 t + p` of the array. -/
def rowOf (t : Fin cfg1.N) (p : Fin 5000) : Fin 100000 := ⟨5000 * t.val + p.val, by have := lt20 t; omega⟩

/-- The block of the neighbours' means at point `t` is rows `5000 t …` of its array. -/
theorem blk0_apply (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c main_v41 : S100000x64.Idx → Elt Ideal .f32) k := by
  obtain ⟨e0, e1, -⟩ := idx_facts t
  unfold iblk1
  rw [View.read_apply]
  show V c main_v41 _ = V c main_v41 _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- The block of the nodes' own features at point `t` is rows `5000 t …` of its array. -/
theorem blk1_apply (c : Dev nD) (t : Fin cfg1.N) (x : S5000x64.Idx) (k : S100000x64.Idx)
    (hk0 : (k 0).val = 5000 * t.val + (x 0).val) (hk1 : (k 1).val = (x 1).val) :
    (iblk1 V c 1 t : Vec Ideal S5000x64 .f32) x = (V c main_v29 : S100000x64.Idx → Elt Ideal .f32) k := by
  obtain ⟨-, -, e0, e1, -⟩ := idx_facts t
  unfold iblk1
  rw [View.read_apply]
  show V c main_v29 _ = V c main_v29 _
  congr 1
  funext a
  apply Fin.ext
  match a with
  | ⟨0, _⟩ => show win1_1.index t 0 * 5000 + 1 * (x 0).val = (k 0).val; rw [e0, hk0]; omega
  | ⟨1, _⟩ => show win1_1.index t 1 * 64 + 1 * (x 1).val = (k 1).val; rw [e1, hk1]; omega

/-- The neighbour weights' block is the whole matrix. -/
theorem blk2_apply (c : Dev nD) (t : Fin cfg1.N) (x : S64x64.Idx) :
    (iblk1 V c 2 t : Vec Ideal S64x64 .f32) x = (V c main_arg5 : S64x64.Idx → Elt Ideal .f32) x := by
  obtain ⟨-, -, -, -, e0, e1, -⟩ := idx_facts t
  unfold iblk1
  rw [View.read_apply]
  show V c main_arg5 _ = V c main_arg5 _
  congr 1
  funext a
  apply Fin.ext
  match a with
  | ⟨0, _⟩ => show win1_2.index t 0 * 64 + 1 * (x 0).val = (x 0).val; rw [e0]; omega
  | ⟨1, _⟩ => show win1_2.index t 1 * 64 + 1 * (x 1).val = (x 1).val; rw [e1]; omega

/-- The bias row's block is the whole row. -/
theorem blk3_apply (c : Dev nD) (t : Fin cfg1.N) (x : S1x64.Idx) :
    (iblk1 V c 3 t : Vec Ideal S1x64 .f32) x = (V c main_v42 : S1x64.Idx → Elt Ideal .f32) x := by
  obtain ⟨-, -, -, -, -, -, e0, e1, -⟩ := idx_facts t
  unfold iblk1
  rw [View.read_apply]
  show V c main_v42 _ = V c main_v42 _
  congr 1
  funext a
  apply Fin.ext
  match a with
  | ⟨0, _⟩ => show win1_3.index t 0 * 1 + 1 * (x 0).val = (x 0).val; rw [e0]; omega
  | ⟨1, _⟩ => show win1_3.index t 1 * 64 + 1 * (x 1).val = (x 1).val; rw [e1]; omega

/-- The root weights' block is the whole matrix. -/
theorem blk4_apply (c : Dev nD) (t : Fin cfg1.N) (x : S64x64.Idx) :
    (iblk1 V c 4 t : Vec Ideal S64x64 .f32) x = (V c main_arg7 : S64x64.Idx → Elt Ideal .f32) x := by
  obtain ⟨-, -, -, -, -, -, -, -, e0, e1, -⟩ := idx_facts t
  unfold iblk1
  rw [View.read_apply]
  show V c main_arg7 _ = V c main_arg7 _
  congr 1
  funext a
  apply Fin.ext
  match a with
  | ⟨0, _⟩ => show win1_4.index t 0 * 64 + 1 * (x 0).val = (x 0).val; rw [e0]; omega
  | ⟨1, _⟩ => show win1_4.index t 1 * 64 + 1 * (x 1).val = (x 1).val; rw [e1]; omega

/-- The layer's output as one function of the arrays the region finds. -/
abbrev layer (c : Dev nD) : S100000x64.Idx → Elt Ideal .f32 :=
  Cert.Sage.relu64 (F := Ideal) (Cert.Sage.lin64 (F := Ideal) (V c main_v41) (V c main_v29) (V c main_arg5) (V c main_v42) (V c main_arg7))

/-- The body's stored value at an entry of point `t`'s block is the layer function at that row of the array: the bias moves
    between the two products, which addition's commutativity and associativity allow. -/
theorem point_eq (c : Dev nD) (t : Fin cfg1.N) (p : Fin 5000) (q : Fin 64) :
    k1_pay1 (F := Ideal) (iblk1 V c 0 t) (iblk1 V c 1 t) (iblk1 V c 2 t) (iblk1 V c 4 t) (iblk1 V c 3 t) (ix2 p q)
      = layer V c (ix2 (rowOf t p) q) := by
  have h0 : ∀ k : Fin 64, (iblk1 V c 0 t : Vec Ideal S5000x64 .f32) (ix2 p k) = (V c main_v41 : S100000x64.Idx → Elt Ideal .f32) (ix2 (rowOf t p) k) :=
    fun k => blk0_apply V c t (ix2 p k) (ix2 (rowOf t p) k) rfl rfl
  have h1 : ∀ k : Fin 64, (iblk1 V c 1 t : Vec Ideal S5000x64 .f32) (ix2 p k) = (V c main_v29 : S100000x64.Idx → Elt Ideal .f32) (ix2 (rowOf t p) k) :=
    fun k => blk1_apply V c t (ix2 p k) (ix2 (rowOf t p) k) rfl rfl
  rw [pay_apply]
  show _ = Cert.Sage.relu64 (F := Ideal) _ (ix2 (rowOf t p) q)
  rw [Cert.Sage.relu64_apply, Cert.Sage.lin64_apply, add_right_comm]
  simp only [h0, h1, blk2_apply, blk3_apply, blk4_apply]

/-- What point `t` writes back is block `t` of the layer function. -/
theorem flushed_eq (c : Dev nD) (t : Fin cfg1.N) :
    (dat1 V c).flushed 5 t = ((cfg1.win 5).blk t).view.read (Elt Ideal) (layer V c) := by
  obtain ⟨-, -, -, -, -, -, -, -, -, -, e0, e1⟩ := idx_facts t
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  show k1_pay1 (F := Ideal) (iblk1 V c 0 t) (iblk1 V c 1 t) (iblk1 V c 2 t) (iblk1 V c 4 t) (iblk1 V c 3 t) j
    = layer V c (((cfg1.win 5).blk t).view.emb j)
  have hemb : ((cfg1.win 5).blk t).view.emb j = ix2 (rowOf t (j 0)) (j 1) := by
    funext a
    apply Fin.ext
    match a with
    | ⟨0, _⟩ => show win1_5.index t 0 * 5000 + 1 * (j 0).val = 5000 * t.val + (j 0).val; rw [e0]; omega
    | ⟨1, _⟩ => show win1_5.index t 1 * 64 + 1 * (j 1).val = (j 1).val; rw [e1]; omega
  rw [hemb]
  exact (congrArg _ (eq_ix2 j)).trans (point_eq V c t (j 0) (j 1))

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v43).slice (win1_5.rect t)).set ↔ _
  rw [View.set_slice_whole, Rect.mem_set_unit]
  exact Iff.rfl

/-- Every row is in the block of the point `row / 5000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by omega⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0]; show (i 0).val / 5000 * 5000 ≤ _ ∧ _ < (i 0).val / 5000 * 5000 + 5000; omega
  | ⟨1, _⟩ => show win1_5.index t (1 : Fin 2) * 64 ≤ (i 1).val ∧ (i 1).val < win1_5.index t (1 : Fin 2) * 64 + 64; rw [e1]; omega

/-- After the region the output array is the layer function of the arrays the region found. -/
theorem final (c : Dev nD) : (dat1 V c).arrAt 5 cfg1.N = layer V c :=
  (dat1 V c).arrAt_eq_of_cover 5 (layer V c) (fun t _ => flushed_eq V c t) cover

end Cert.KernelIdeal.Region1

end
-- ==== Proof.Region2.lean ====
/-
  The third graph layer's kernel, read as a whole-array function on the extended reals.

  The grid has 20 points; point `t` works on rows `5000 t … 5000 t + 4999`. At an entry `(p, q)` of its block the body
  stores `(∑ k, mean (p, k) * Wn (k, q) + ∑ k, h (p, k) * Wr (k, q)) + b (0, q)` over 64 features, with no maximum after
  it: the two matrix products go into zero accumulators and the changes of float format are the identity. The layer
  function has the bias between the two products; addition of extended reals is commutative and associative, so the two
  agree. The twenty row blocks tile the 100000 rows, so after the region the output array is the layer function of the
  arrays the region found.
-/
import proofs.«140905_j59665685676525_1_alg».proof.Proof.Gen.KernelIdeal.Frame
import proofs.«140905_j59665685676525_1_alg».proof.Proof.Layers
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: both products as sums and the bias row's entry. -/
theorem pay_apply (x0 x1 : Vec Ideal S5000x64 .f32) (x2 x4 : Vec Ideal S64x64 .f32) (x3 : Vec Ideal S1x64 .f32) (p : Fin 5000) (q : Fin 64) :
    k2_pay1 (F := Ideal) x0 x1 x2 x4 x3 (ix2 p q)
      = (∑ k : Fin 64, x0 (ix2 p k) * x2 (ix2 k q) + ∑ k : Fin 64, x1 (ix2 p k) * x4 (ix2 k q)) + x3 (ix2 (0 : Fin 1) q) := by
  unfold k2_pay1
  simp only [matmul, addf_apply]
  rw [Cert.PlainDot.matmul_zero_apply dot_S5000x64_S64x64_S5000x64_1_0_0_1_n_n rfl rfl rfl rfl rfl rfl none
      (truncf .bf16 (shapeCast S5000x64 x0 shapeCasts_S5000x64_S5000x64) bitsLt_bf16_f32) (truncf .bf16 x2 bitsLt_bf16_f32) p q,
    Cert.PlainDot.matmul_zero_apply dot_S5000x64_S64x64_S5000x64_1_0_0_1_n_n rfl rfl rfl rfl rfl rfl none
      (truncf .bf16 (shapeCast S5000x64 x1 shapeCasts_S5000x64_S5000x64) bitsLt_bf16_f32) (truncf .bf16 x4 bitsLt_bf16_f32) p q,
    broadcastTo_1b_ab_apply]
  simp only [truncf_apply, shapeCast_self]

/-- The grid has 20 points. -/
theorem lt20 (t : Fin cfg2.N) : t.val < 20 := by
  have h := t.isLt
  have hN : cfg2.N = 20 := N_2
  omega

/-- The printed index maps over the grid: the three row-blocked windows are at block row `t`, block column 0; the weights and the bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block is row `5000 t + p` of the array. -/
def rowOf (t : Fin cfg2.N) (p : Fin 5000) : Fin 100000 := ⟨5000 * t.val + p.val, by have := lt20 t; omega⟩

/-- The block of the neighbours' means at point `t` is rows `5000 t …` of its array. -/
theorem blk0_apply (c : Dev nD) (t : Fin cfg2.N) (x : S5000x64.Idx) (k : S100000x64.Idx)
    (hk0 : (k 0).val = 5000 * t.val + (x 0).val) (hk1 : (k 1).val = (x 1).val) :
    (iblk2 V c 0 t : Vec Ideal S5000x64 .f32) x = (V c main_v55 : S100000x64.Idx → Elt Ideal .f32) k := by
  obtain ⟨e0, e1, -⟩ := idx_facts t
  unfold iblk2
  rw [View.read_apply]
  show V c main_v55 _ = V c main_v55 _
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- The block of the nodes' own features at point `t` is rows `5000 t …` of its array. -/
theorem blk1_apply (c : Dev nD) (t : Fin cfg2.N) (x : S5000x64.Idx) (k : S100000x64.Idx)
    (hk0 : (k 0).val = 5000 * t.val + (x 0).val) (hk1 : (k 1).val = (x 1).val) :
    (iblk2 V c 1 t : Vec Ideal S5000x64 .f32) x = (V c main_v43 : S100000x64.Idx → Elt Ideal .f32) k := by
  obtain ⟨-, -, e0, e1, -⟩ := idx_facts t
  unfold iblk2
  rw [View.read_apply]
  show V c main_v43 _ = V c main_v43 _
  congr 1
  funext a
  apply Fin.ext
  match a with
  | ⟨0, _⟩ => show win2_1.index t 0 * 5000 + 1 * (x 0).val = (k 0).val; rw [e0, hk0]; omega
  | ⟨1, _⟩ => show win2_1.index t 1 * 64 + 1 * (x 1).val = (k 1).val; rw [e1, hk1]; omega

/-- The neighbour weights' block is the whole matrix. -/
theorem blk2_apply (c : Dev nD) (t : Fin cfg2.N) (x : S64x64.Idx) :
    (iblk2 V c 2 t : Vec Ideal S64x64 .f32) x = (V c main_arg8 : S64x64.Idx → Elt Ideal .f32) x := by
  obtain ⟨-, -, -, -, e0, e1, -⟩ := idx_facts t
  unfold iblk2
  rw [View.read_apply]
  show V c main_arg8 _ = V c main_arg8 _
  congr 1
  funext a
  apply Fin.ext
  match a with
  | ⟨0, _⟩ => show win2_2.index t 0 * 64 + 1 * (x 0).val = (x 0).val; rw [e0]; omega
  | ⟨1, _⟩ => show win2_2.index t 1 * 64 + 1 * (x 1).val = (x 1).val; rw [e1]; omega

/-- The bias row's block is the whole row. -/
theorem blk3_apply (c : Dev nD) (t : Fin cfg2.N) (x : S1x64.Idx) :
    (iblk2 V c 3 t : Vec Ideal S1x64 .f32) x = (V c main_v56 : S1x64.Idx → Elt Ideal .f32) x := by
  obtain ⟨-, -, -, -, -, -, e0, e1, -⟩ := idx_facts t
  unfold iblk2
  rw [View.read_apply]
  show V c main_v56 _ = V c main_v56 _
  congr 1
  funext a
  apply Fin.ext
  match a with
  | ⟨0, _⟩ => show win2_3.index t 0 * 1 + 1 * (x 0).val = (x 0).val; rw [e0]; omega
  | ⟨1, _⟩ => show win2_3.index t 1 * 64 + 1 * (x 1).val = (x 1).val; rw [e1]; omega

/-- The root weights' block is the whole matrix. -/
theorem blk4_apply (c : Dev nD) (t : Fin cfg2.N) (x : S64x64.Idx) :
    (iblk2 V c 4 t : Vec Ideal S64x64 .f32) x = (V c main_arg10 : S64x64.Idx → Elt Ideal .f32) x := by
  obtain ⟨-, -, -, -, -, -, -, -, e0, e1, -⟩ := idx_facts t
  unfold iblk2
  rw [View.read_apply]
  show V c main_arg10 _ = V c main_arg10 _
  congr 1
  funext a
  apply Fin.ext
  match a with
  | ⟨0, _⟩ => show win2_4.index t 0 * 64 + 1 * (x 0).val = (x 0).val; rw [e0]; omega
  | ⟨1, _⟩ => show win2_4.index t 1 * 64 + 1 * (x 1).val = (x 1).val; rw [e1]; omega

/-- The layer's output as one function of the arrays the region finds. -/
abbrev layer (c : Dev nD) : S100000x64.Idx → Elt Ideal .f32 :=
  Cert.Sage.lin64 (F := Ideal) (V c main_v55) (V c main_v43) (V c main_arg8) (V c main_v56) (V c main_arg10)

/-- The body's stored value at an entry of point `t`'s block is the layer function at that row of the array: the bias moves
    between the two products, which addition's commutativity and associativity allow. -/
theorem point_eq (c : Dev nD) (t : Fin cfg2.N) (p : Fin 5000) (q : Fin 64) :
    k2_pay1 (F := Ideal) (iblk2 V c 0 t) (iblk2 V c 1 t) (iblk2 V c 2 t) (iblk2 V c 4 t) (iblk2 V c 3 t) (ix2 p q)
      = layer V c (ix2 (rowOf t p) q) := by
  have h0 : ∀ k : Fin 64, (iblk2 V c 0 t : Vec Ideal S5000x64 .f32) (ix2 p k) = (V c main_v55 : S100000x64.Idx → Elt Ideal .f32) (ix2 (rowOf t p) k) :=
    fun k => blk0_apply V c t (ix2 p k) (ix2 (rowOf t p) k) rfl rfl
  have h1 : ∀ k : Fin 64, (iblk2 V c 1 t : Vec Ideal S5000x64 .f32) (ix2 p k) = (V c main_v43 : S100000x64.Idx → Elt Ideal .f32) (ix2 (rowOf t p) k) :=
    fun k => blk1_apply V c t (ix2 p k) (ix2 (rowOf t p) k) rfl rfl
  rw [pay_apply]
  show _ = Cert.Sage.lin64 (F := Ideal) _ _ _ _ _ (ix2 (rowOf t p) q)
  rw [Cert.Sage.lin64_apply, add_right_comm]
  simp only [h0, h1, blk2_apply, blk3_apply, blk4_apply]

/-- What point `t` writes back is block `t` of the layer function. -/
theorem flushed_eq (c : Dev nD) (t : Fin cfg2.N) :
    (dat2 V c).flushed 5 t = ((cfg2.win 5).blk t).view.read (Elt Ideal) (layer V c) := by
  obtain ⟨-, -, -, -, -, -, -, -, -, -, e0, e1⟩ := idx_facts t
  show (cfg2.win 5).cut (grid2.coords t) ((dat2 V c).after 5 t) = _
  rw [after2_5]
  unfold out2_5
  rw [View.canon_unit_zero hz]
  simp only [View.ld_unit_zero (S := S5000x64) hz, View.ld_unit_zero (S := S64x64) hz, View.ld_unit_zero (S := S1x64) hz]
  funext j
  show k2_pay1 (F := Ideal) (iblk2 V c 0 t) (iblk2 V c 1 t) (iblk2 V c 2 t) (iblk2 V c 4 t) (iblk2 V c 3 t) j
    = layer V c (((cfg2.win 5).blk t).view.emb j)
  have hemb : ((cfg2.win 5).blk t).view.emb j = ix2 (rowOf t (j 0)) (j 1) := by
    funext a
    apply Fin.ext
    match a with
    | ⟨0, _⟩ => show win2_5.index t 0 * 5000 + 1 * (j 0).val = 5000 * t.val + (j 0).val; rw [e0]; omega
    | ⟨1, _⟩ => show win2_5.index t 1 * 64 + 1 * (j 1).val = (j 1).val; rw [e1]; omega
  rw [hemb]
  exact (congrArg _ (eq_ix2 j)).trans (point_eq V c t (j 0) (j 1))

/-- An index of the array is in point `t`'s block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v57).slice (win2_5.rect t)).set ↔ _
  rw [View.set_slice_whole, Rect.mem_set_unit]
  exact Iff.rfl

/-- Every row is in the block of the point `row / 5000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  let t : Fin cfg2.N := ⟨(i 0).val / 5000, by omega⟩
  obtain ⟨-, -, -, -, -, -, -, -, -, -, e0, e1⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; rw [e0]; show (i 0).val / 5000 * 5000 ≤ _ ∧ _ < (i 0).val / 5000 * 5000 + 5000; omega
  | ⟨1, _⟩ => show win2_5.index t (1 : Fin 2) * 64 ≤ (i 1).val ∧ (i 1).val < win2_5.index t (1 : Fin 2) * 64 + 64; rw [e1]; omega

/-- After the region the output array is the layer function of the arrays the region found. -/
theorem final (c : Dev nD) : (dat2 V c).arrAt 5 cfg2.N = layer V c :=
  (dat2 V c).arrAt_eq_of_cover 5 (layer V c) (fun t _ => flushed_eq V c t) cover

end Cert.KernelIdeal.Region2

end
-- ==== Proof.Region3.lean ====
/-
  The head's kernel, read as a whole-array function on the extended reals.

  The grid has 20 points; point `t` works on rows `5000 t … 5000 t + 4999`. At an entry `(p, q)` of its block (there is
  one column) the body stores `σ (∑ k, max (∑ j, h (p, j) * Wp1 (j, k) + b1 (0, k)) 0 * Wp2 (k, q) + b2 (0, q))`, the
  logistic function of the extended reals, which is the head's `1 / (1 + e^(-x))`. The twenty row blocks tile the
  100000 rows, so after the region the output array is the head of the arrays the region found.
-/
import proofs.«140905_j59665685676525_1_alg».proof.Proof.Gen.KernelIdeal.Frame
import proofs.«140905_j59665685676525_1_alg».proof.Proof.Layers
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The hidden row at an entry: the product as a sum, the bias row's entry, the maximum with zero. -/
theorem hid_apply (x0 : Vec Ideal S5000x64 .f32) (x1 : Vec Ideal S64x64 .f32) (x2 : Vec Ideal S1x64 .f32) (p : Fin 5000) (k : Fin 64) :
    (maximumf (addf (FloatOps.matmul dot_S5000x64_S64x64_S5000x64_1_0_0_1_n_n none (truncf .bf16 (shapeCast S5000x64 x0 shapeCasts_S5000x64_S5000x64) bitsLt_bf16_f32) (truncf .bf16 x1 bitsLt_bf16_f32) (constant S5000x64 .f32 0x00000000#32))
        (broadcastTo S5000x64 (shapeCast S1x64 x2 shapeCasts_S1x64_S1x64) broadcasts_S1x64_S5000x64))
      (broadcast S5000x64 (FloatOps.ofBits (F := Ideal) .f32 0x00000000#32)) : FVec Ideal S5000x64 .f32) (ix2 p k)
      = max (∑ j : Fin 64, x0 (ix2 p j) * x1 (ix2 j k) + x2 (ix2 (0 : Fin 1) k)) 0 := by
  simp only [maximumf_apply, addf_apply, broadcast_apply]
  rw [Cert.PlainDot.matmul_zero_apply dot_S5000x64_S64x64_S5000x64_1_0_0_1_n_n rfl rfl rfl rfl rfl rfl none
      (truncf .bf16 (shapeCast S5000x64 x0 shapeCasts_S5000x64_S5000x64) bitsLt_bf16_f32) (truncf .bf16 x1 bitsLt_bf16_f32) p k,
    broadcastTo_1b_ab_apply]
  simp only [truncf_apply, shapeCast_self, Ideal.ofBits_def, Ideal.ofBits_zero_f32]

/-- The body's stored value at an entry. -/
theorem pay_apply (x0 : Vec Ideal S5000x64 .f32) (x1 : Vec Ideal S64x64 .f32) (x2 : Vec Ideal S1x64 .f32) (x3 : Vec Ideal S64x1 .f32) (x4 : Vec Ideal S1x1 .f32)
    (p : Fin 5000) (q : Fin 1) :
    k3_pay1 (F := Ideal) x0 x1 x2 x3 x4 (ix2 p q)
      = Ideal.logistic (∑ k : Fin 64, max (∑ j : Fin 64, x0 (ix2 p j) * x1 (ix2 j k) + x2 (ix2 (0 : Fin 1) k)) 0 * x3 (ix2 k q)
          + x4 (ix2 (0 : Fin 1) q)) := by
  unfold k3_pay1
  simp only [matmul, logistic, addf_apply]
  rw [Ideal.logistic_def,
    Cert.PlainDot.matmul_zero_apply dot_S5000x64_S64x1_S5000x1_1_0_0_1_n_n rfl rfl rfl rfl rfl rfl none _ (truncf .bf16 x3 bitsLt_bf16_f32) p q,
    broadcastTo_1b_ab_apply, shapeCast_self x4]
  simp only [truncf_apply]
  simp only [hid_apply]

/-- The grid has 20 points. -/
theorem lt20 (t : Fin cfg3.N) : t.val < 20 := by
  have h := t.isLt
  have hN : cfg3.N = 20 := N_3
  omega

/-- The printed index maps over the grid: the two row-blocked windows are at block row `t`, block column 0; the weights and the biases at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of point `t`'s block is row `5000 t + p` of the array. -/
def rowOf (t : Fin cfg3.N) (p : Fin 5000) : Fin 100000 := ⟨5000 * t.val + p.val, by have := lt20 t; omega⟩

/-- The block of the last layer's features at point `t` is rows `5000 t …` of its array. -/
theorem blk0_apply (c : Dev nD) (t : Fin cfg3.N) (x : S5000x64.Idx) (k : S100000x64.Idx)
    (hk0 : (k 0).val = 5000 * t.val + (x 0).val) (hk1 : (k 1).val = (x 1).val) :
    (iblk3 V c 0 t : Vec Ideal S5000x64 .f32) x = (V c main_v57 : S100000x64.Idx → Elt Ideal .f32) k := by
  obtain ⟨e0, e1, -⟩ := idx_facts t
  unfold iblk3
  rw [View.read_apply]
  show V c main_v57 _ = V c main_v57 _
  congr 1
  funext a
  apply Fin.ext
  match a with
  | ⟨0, _⟩ => show win3_0.index t 0 * 5000 + 1 * (x 0).val = (k 0).val; rw [e0, hk0]; omega
  | ⟨1, _⟩ => show win3_0.index t 1 * 64 + 1 * (x 1).val = (k 1).val; rw [e1, hk1]; omega

/-- The first weights' block is the whole matrix. -/
theorem blk1_apply (c : Dev nD) (t : Fin cfg3.N) (x : S64x64.Idx) :
    (iblk3 V c 1 t : Vec Ideal S64x64 .f32) x = (V c main_arg11 : S64x64.Idx → Elt Ideal .f32) x := by
  obtain ⟨-, -, e0, e1, -⟩ := idx_facts t
  unfold iblk3
  rw [View.read_apply]
  show V c main_arg11 _ = V c main_arg11 _
  congr 1
  funext a
  apply Fin.ext
  match a with
  | ⟨0, _⟩ => show win3_1.index t 0 * 64 + 1 * (x 0).val = (x 0).val; rw [e0]; omega
  | ⟨1, _⟩ => show win3_1.index t 1 * 64 + 1 * (x 1).val = (x 1).val; rw [e1]; omega

/-- The first bias row's block is the whole row. -/
theorem blk2_apply (c : Dev nD) (t : Fin cfg3.N) (x : S1x64.Idx) :
    (iblk3 V c 2 t : Vec Ideal S1x64 .f32) x = (V c main_v58 : S1x64.Idx → Elt Ideal .f32) x := by
  obtain ⟨-, -, -, -, e0, e1, -⟩ := idx_facts t
  unfold iblk3
  rw [View.read_apply]
  show V c main_v58 _ = V c main_v58 _
  congr 1
  funext a
  apply Fin.ext
  match a with
  | ⟨0, _⟩ => show win3_2.index t 0 * 1 + 1 * (x 0).val = (x 0).val; rw [e0]; omega
  | ⟨1, _⟩ => show win3_2.index t 1 * 64 + 1 * (x 1).val = (x 1).val; rw [e1]; omega

/-- The second weights' block is the whole column. -/
theorem blk3_apply (c : Dev nD) (t : Fin cfg3.N) (x : S64x1.Idx) :
    (iblk3 V c 3 t : Vec Ideal S64x1 .f32) x = (V c main_arg13 : S64x1.Idx → Elt Ideal .f32) x := by
  obtain ⟨-, -, -, -, -, -, e0, e1, -⟩ := idx_facts t
  unfold iblk3
  rw [View.read_apply]
  show V c main_arg13 _ = V c main_arg13 _
  congr 1
  funext a
  apply Fin.ext
  match a with
  | ⟨0, _⟩ => show win3_3.index t 0 * 64 + 1 * (x 0).val = (x 0).val; rw [e0]; omega
  | ⟨1, _⟩ => show win3_3.index t 1 * 1 + 1 * (x 1).val = (x 1).val; rw [e1]; omega

/-- The second bias' block is the whole one-by-one matrix. -/
theorem blk4_apply (c : Dev nD) (t : Fin cfg3.N) (x : S1x1.Idx) :
    (iblk3 V c 4 t : Vec Ideal S1x1 .f32) x = (V c main_v59 : S1x1.Idx → Elt Ideal .f32) x := by
  obtain ⟨-, -, -, -, -, -, -, -, e0, e1, -⟩ := idx_facts t
  unfold iblk3
  rw [View.read_apply]
  show V c main_v59 _ = V c main_v59 _
  congr 1
  funext a
  apply Fin.ext
  match a with
  | ⟨0, _⟩ => show win3_4.index t 0 * 1 + 1 * (x 0).val = (x 0).val; rw [e0]; omega
  | ⟨1, _⟩ => show win3_4.index t 1 * 1 + 1 * (x 1).val = (x 1).val; rw [e1]; omega

/-- The head's output as one function of the arrays the region finds. -/
abbrev layer (c : Dev nD) : S100000x1.Idx → Elt Ideal .f32 :=
  Cert.Sage.head (F := Ideal) (V c main_v57) (V c main_arg11) (V c main_v58) (V c main_arg13) (V c main_v59)

/-- The body's stored value at an entry of point `t`'s block is the head at that row of the array. -/
theorem point_eq (c : Dev nD) (t : Fin cfg3.N) (p : Fin 5000) (q : Fin 1) :
    k3_pay1 (F := Ideal) (iblk3 V c 0 t) (iblk3 V c 1 t) (iblk3 V c 2 t) (iblk3 V c 3 t) (iblk3 V c 4 t) (ix2 p q)
      = layer V c (ix2 (rowOf t p) q) := by
  have h0 : ∀ j : Fin 64, (iblk3 V c 0 t : Vec Ideal S5000x64 .f32) (ix2 p j) = (V c main_v57 : S100000x64.Idx → Elt Ideal .f32) (ix2 (rowOf t p) j) :=
    fun j => blk0_apply V c t (ix2 p j) (ix2 (rowOf t p) j) rfl rfl
  rw [pay_apply]
  show _ = Cert.Sage.head (F := Ideal) _ _ _ _ _ (ix2 (rowOf t p) q)
  rw [Cert.Sage.head_apply]
  simp only [h0, blk1_apply, blk2_apply, blk3_apply, blk4_apply]

/-- What point `t` writes back is block `t` of the head's function. -/
theorem flushed_eq (c : Dev nD) (t : Fin cfg3.N) :
    (dat3 V c).flushed 5 t = ((cfg3.win 5).blk t).view.read (Elt Ideal) (layer V c) := by
  obtain ⟨-, -, -, -, -, -, -, -, -, -, e0, e1⟩ := idx_facts t
  show (cfg3.win 5).cut (grid3.coords t) ((dat3 V c).after 5 t) = _
  rw [after3_5]
  unfold out3_5
  rw [View.canon_unit_zero hz]
  simp only [View.ld_unit_zero (S := S5000x64) hz, View.ld_unit_zero (S := S64x64) hz, View.ld_unit_zero (S := S1x64) hz,
    View.ld_unit_zero (S := S64x1) hz, View.ld_unit_zero (S := S1x1) hz]
  funext j
  show k3_pay1 (F := Ideal) (iblk3 V c 0 t) (iblk3 V c 1 t) (iblk3 V c 2 t) (iblk3 V c 3 t) (iblk3 V c 4 t) j
    = layer V c (((cfg3.win 5).blk t).view.emb j)
  have hemb : ((cfg3.win 5).blk t).view.emb j = ix2 (rowOf t (j 0)) (j 1) := by
    funext a
    apply Fin.ext
    match a with
    | ⟨0, _⟩ => show win3_5.index t 0 * 5000 + 1 * (j 0).val = 5000 * t.val + (j 0).val; rw [e0]; omega
    | ⟨1, _⟩ => show win3_5.index t 1 * 1 + 1 * (j 1).val = (j 1).val; rw [e1]; omega
  rw [hemb]
  exact (congrArg _ (eq_ix2 j)).trans (point_eq V c t (j 0) (j 1))

/-- An index of the array is in point `t`'s block iff each coordinate is in the block's range on its axis. -/
theorem mem_blk (t : Fin cfg3.N) (i : S100000x1.Idx) :
    i ∈ ((cfg3.win 5).blk t).view.set ↔ ∀ a : Fin 2, win3_5.index t a * S5000x1.size a ≤ (i a).val ∧ (i a).val < win3_5.index t a * S5000x1.size a + S5000x1.size a := by
  show i ∈ ((View.whole main_v60).slice (win3_5.rect t)).set ↔ _
  rw [View.set_slice_whole, Rect.mem_set_unit]
  exact Iff.rfl

/-- Every row is in the block of the point `row / 5000`. -/
theorem cover (i : S100000x1.Idx) : ∃ t : Fin cfg3.N, (cfg3.win 5).flush t = true ∧ i ∈ ((cfg3.win 5).blk t).view.set := by
  have hi0 : (i 0).val < 100000 := (i 0).isLt
  have hi1 : (i 1).val < 1 := (i 1).isLt
  have hN : cfg3.N = 20 := N_3
  let t : Fin cfg3.N := ⟨(i 0).val / 5000, by omega⟩
  obtain ⟨-, -, -, -, -, -, -, -, -, -, e0, e1⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; rw [e0]; show (i 0).val / 5000 * 5000 ≤ _ ∧ _ < (i 0).val / 5000 * 5000 + 5000; omega
  | ⟨1, _⟩ => show win3_5.index t (1 : Fin 2) * 1 ≤ (i 1).val ∧ (i 1).val < win3_5.index t (1 : Fin 2) * 1 + 1; rw [e1]; omega

/-- After the region the output array is the head of the arrays the region found. -/
theorem final (c : Dev nD) : (dat3 V c).arrAt 5 cfg3.N = layer V c :=
  (dat3 V c).arrAt_eq_of_cover 5 (layer V c) (fun t _ => flushed_eq V c t) cover

end Cert.KernelIdeal.Region3

end
-- ==== Proof.KernelValue.lean ====
/-
  The kernel program's result is the network function of its arguments.

  @main is ten segments: three stretches of host operations, then four kernel regions with a stretch of host
  operations before each of the last three. The contents of the buffers at each segment boundary are named here in
  terms of the network's steps: before the first region the edge list's two rows, the reciprocal in-degrees and the
  mean of the neighbours' input features; after a graph layer's region its output array is the layer function of what
  the region found; a stretch between two regions forms the next mean of neighbours from the layer just written and
  the rows and degrees computed at the start, which no region and no later stretch writes; a bias reshaped to one row
  is the row the network function uses. The last region leaves the head of the third layer.
-/
import proofs.«140905_j59665685676525_1_alg».proof.Proof.Gen.KernelIdeal.Frame
import proofs.«140905_j59665685676525_1_alg».proof.Proof.KernelRun
import proofs.«140905_j59665685676525_1_alg».proof.Proof.Layers
import proofs.«140905_j59665685676525_1_alg».proof.Proof.Region0
import proofs.«140905_j59665685676525_1_alg».proof.Proof.Region1
import proofs.«140905_j59665685676525_1_alg».proof.Proof.Region2
import proofs.«140905_j59665685676525_1_alg».proof.Proof.Region3
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

/-- Unfold the boundaries that are host stretches and read a buffer through their operations. -/
local macro "walk" : tactic =>
  `(tactic| (dsimp only [W9, W7, W5, W3, W2, W1, hostOps3, hostOps2, hostOps1, hostOps0_2, hostOps0_1, hostOps0]; after_results_simp))

/-! ## Before the first region

These hold for any float type: the stretches before the first region only move the edge list's rows, count the edges
that end at each node, and form the mean of the neighbours' input features. -/

section Start

variable {F : FTy → Type} [FloatOps F] (m : (ℓ : Loc nD τ sig) → Buf (Elt F) ℓ) (ρ : Dev nD → PrngReg)

theorem w3_v1 (c : Dev nD) : W3 m ρ c (Proc.devRef .tc main_v1) = Cert.Sage.srcRow (F := F) (m ((c : Thread nD τ).loc main_arg1)) := by
  walk
  rfl

theorem w3_v3 (c : Dev nD) : W3 m ρ c (Proc.devRef .tc main_v3) = Cert.Sage.dstRow (F := F) (m ((c : Thread nD τ).loc main_arg1)) := by
  walk
  rfl

theorem w3_v15 (c : Dev nD) : W3 m ρ c (Proc.devRef .tc main_v15) = Cert.Sage.invDegree (F := F) (m ((c : Thread nD τ).loc main_arg1)) := by
  walk
  simp only [TRef.ofBuf, TRef.toBuf, cast_eq]
  rfl

theorem w3_v27 (c : Dev nD) : W3 m ρ c (Proc.devRef .tc main_v27) = Cert.Sage.mean32 (F := F) (m ((c : Thread nD τ).loc main_arg1)) (m ((c : Thread nD τ).loc main_arg0)) := by
  walk
  simp only [TRef.ofBuf, TRef.toBuf, cast_eq]
  rfl

theorem w3_v28 (c : Dev nD) : W3 m ρ c (Proc.devRef .tc main_v28) = Cert.Sage.row64 (F := F) (m ((c : Thread nD τ).loc main_arg3)) := by
  walk
  exact Cert.Sage.row64_eq_reshape _ _

theorem w3_arg0 (c : Dev nD) : W3 m ρ c (Proc.devRef .tc main_arg0) = (m ((c : Thread nD τ).loc main_arg0)) := by walk
theorem w3_arg2 (c : Dev nD) : W3 m ρ c (Proc.devRef .tc main_arg2) = (m ((c : Thread nD τ).loc main_arg2)) := by walk
theorem w3_arg4 (c : Dev nD) : W3 m ρ c (Proc.devRef .tc main_arg4) = (m ((c : Thread nD τ).loc main_arg4)) := by walk

end Start

variable (m : (ℓ : Loc nD τ sig) → Buf (Elt Ideal) ℓ) (ρ : Dev nD → PrngReg)

/-- The first layer's output, of the launch contents of the arguments. -/
abbrev h1 (c : Dev nD) := Cert.Sage.hidden1 (F := Ideal) (m ((c : Thread nD τ).loc main_arg0)) (m ((c : Thread nD τ).loc main_arg1)) (m ((c : Thread nD τ).loc main_arg2)) (m ((c : Thread nD τ).loc main_arg3)) (m ((c : Thread nD τ).loc main_arg4))
/-- The second layer's output. -/
abbrev h2 (c : Dev nD) := Cert.Sage.relu64 (F := Ideal) (Cert.Sage.step64 (F := Ideal) (h1 m c) (m ((c : Thread nD τ).loc main_arg1)) (m ((c : Thread nD τ).loc main_arg5)) (m ((c : Thread nD τ).loc main_arg6)) (m ((c : Thread nD τ).loc main_arg7)))
/-- The third layer's output. -/
abbrev h3 (c : Dev nD) := Cert.Sage.step64 (F := Ideal) (h2 m c) (m ((c : Thread nD τ).loc main_arg1)) (m ((c : Thread nD τ).loc main_arg8)) (m ((c : Thread nD τ).loc main_arg9)) (m ((c : Thread nD τ).loc main_arg10))

/-! ## After the first region -/

theorem w4_v29 (c : Dev nD) : W4 m ρ c (Proc.devRef .tc main_v29) = h1 m c := by
  refine (W4_arr m ρ c 5).trans ((Cert.KernelIdeal.Region0.final (V3 m ρ) c).trans ?_)
  show Cert.Sage.relu64 (F := Ideal) (Cert.Sage.lin32 (F := Ideal) (W3 m ρ c (Proc.devRef .tc main_v27)) (W3 m ρ c (Proc.devRef .tc main_arg0)) (W3 m ρ c (Proc.devRef .tc main_arg2)) (W3 m ρ c (Proc.devRef .tc main_v28)) (W3 m ρ c (Proc.devRef .tc main_arg4))) = _
  rw [w3_v27, w3_arg0, w3_arg2, w3_v28, w3_arg4]
  rfl

theorem w4_v1 (c : Dev nD) : W4 m ρ c (Proc.devRef .tc main_v1) = Cert.Sage.srcRow (F := Ideal) (m ((c : Thread nD τ).loc main_arg1)) :=
  (W4_of_ne m ρ c main_v1 (by decide)).trans (w3_v1 m ρ c)
theorem w4_v3 (c : Dev nD) : W4 m ρ c (Proc.devRef .tc main_v3) = Cert.Sage.dstRow (F := Ideal) (m ((c : Thread nD τ).loc main_arg1)) :=
  (W4_of_ne m ρ c main_v3 (by decide)).trans (w3_v3 m ρ c)
theorem w4_v15 (c : Dev nD) : W4 m ρ c (Proc.devRef .tc main_v15) = Cert.Sage.invDegree (F := Ideal) (m ((c : Thread nD τ).loc main_arg1)) :=
  (W4_of_ne m ρ c main_v15 (by decide)).trans (w3_v15 m ρ c)
theorem w4_arg6 (c : Dev nD) : W4 m ρ c (Proc.devRef .tc main_arg6) = (m ((c : Thread nD τ).loc main_arg6)) :=
  (W4_of_ne m ρ c main_arg6 (by decide)).trans (by walk)

/-! ## Before the second region -/

theorem w5_v41 (c : Dev nD) : W5 m ρ c (Proc.devRef .tc main_v41) = Cert.Sage.mean64 (F := Ideal) (m ((c : Thread nD τ).loc main_arg1)) (h1 m c) := by
  walk
  rw [w4_v29, w4_v1, w4_v3, w4_v15]
  rfl

theorem w5_v42 (c : Dev nD) : W5 m ρ c (Proc.devRef .tc main_v42) = Cert.Sage.row64 (F := Ideal) (m ((c : Thread nD τ).loc main_arg6)) := by
  walk
  rw [w4_arg6]
  exact Cert.Sage.row64_eq_reshape _ _

theorem w5_v29 (c : Dev nD) : W5 m ρ c (Proc.devRef .tc main_v29) = h1 m c := by
  walk
  exact w4_v29 m ρ c

theorem w5_arg5 (c : Dev nD) : W5 m ρ c (Proc.devRef .tc main_arg5) = (m ((c : Thread nD τ).loc main_arg5)) := by
  walk
  rw [W4_of_ne m ρ c main_arg5 (by decide)]
  walk

theorem w5_arg7 (c : Dev nD) : W5 m ρ c (Proc.devRef .tc main_arg7) = (m ((c : Thread nD τ).loc main_arg7)) := by
  walk
  rw [W4_of_ne m ρ c main_arg7 (by decide)]
  walk

/-! ## After the second region -/

theorem w6_v43 (c : Dev nD) : W6 m ρ c (Proc.devRef .tc main_v43) = h2 m c := by
  refine (W6_arr m ρ c 5).trans ((Cert.KernelIdeal.Region1.final (V5 m ρ) c).trans ?_)
  show Cert.Sage.relu64 (F := Ideal) (Cert.Sage.lin64 (F := Ideal) (W5 m ρ c (Proc.devRef .tc main_v41)) (W5 m ρ c (Proc.devRef .tc main_v29)) (W5 m ρ c (Proc.devRef .tc main_arg5)) (W5 m ρ c (Proc.devRef .tc main_v42)) (W5 m ρ c (Proc.devRef .tc main_arg7))) = _
  rw [w5_v41, w5_v29, w5_arg5, w5_v42, w5_arg7]
  rfl

theorem w6_v1 (c : Dev nD) : W6 m ρ c (Proc.devRef .tc main_v1) = Cert.Sage.srcRow (F := Ideal) (m ((c : Thread nD τ).loc main_arg1)) :=
  (W6_of_ne m ρ c main_v1 (by decide)).trans (by walk; exact w4_v1 m ρ c)
theorem w6_v3 (c : Dev nD) : W6 m ρ c (Proc.devRef .tc main_v3) = Cert.Sage.dstRow (F := Ideal) (m ((c : Thread nD τ).loc main_arg1)) :=
  (W6_of_ne m ρ c main_v3 (by decide)).trans (by walk; exact w4_v3 m ρ c)
theorem w6_v15 (c : Dev nD) : W6 m ρ c (Proc.devRef .tc main_v15) = Cert.Sage.invDegree (F := Ideal) (m ((c : Thread nD τ).loc main_arg1)) :=
  (W6_of_ne m ρ c main_v15 (by decide)).trans (by walk; exact w4_v15 m ρ c)
theorem w6_arg9 (c : Dev nD) : W6 m ρ c (Proc.devRef .tc main_arg9) = (m ((c : Thread nD τ).loc main_arg9)) :=
  (W6_of_ne m ρ c main_arg9 (by decide)).trans (by
    walk
    rw [W4_of_ne m ρ c main_arg9 (by decide)]
    walk)

/-! ## Before the third region -/

theorem w7_v55 (c : Dev nD) : W7 m ρ c (Proc.devRef .tc main_v55) = Cert.Sage.mean64 (F := Ideal) (m ((c : Thread nD τ).loc main_arg1)) (h2 m c) := by
  walk
  rw [w6_v43, w6_v1, w6_v3, w6_v15]
  rfl

theorem w7_v56 (c : Dev nD) : W7 m ρ c (Proc.devRef .tc main_v56) = Cert.Sage.row64 (F := Ideal) (m ((c : Thread nD τ).loc main_arg9)) := by
  walk
  rw [w6_arg9]
  exact Cert.Sage.row64_eq_reshape _ _

theorem w7_v43 (c : Dev nD) : W7 m ρ c (Proc.devRef .tc main_v43) = h2 m c := by
  walk
  exact w6_v43 m ρ c

theorem w7_arg8 (c : Dev nD) : W7 m ρ c (Proc.devRef .tc main_arg8) = (m ((c : Thread nD τ).loc main_arg8)) := by
  walk
  rw [W6_of_ne m ρ c main_arg8 (by decide)]
  walk
  rw [W4_of_ne m ρ c main_arg8 (by decide)]
  walk

theorem w7_arg10 (c : Dev nD) : W7 m ρ c (Proc.devRef .tc main_arg10) = (m ((c : Thread nD τ).loc main_arg10)) := by
  walk
  rw [W6_of_ne m ρ c main_arg10 (by decide)]
  walk
  rw [W4_of_ne m ρ c main_arg10 (by decide)]
  walk

/-! ## After the third region -/

theorem w8_v57 (c : Dev nD) : W8 m ρ c (Proc.devRef .tc main_v57) = h3 m c := by
  refine (W8_arr m ρ c 5).trans ((Cert.KernelIdeal.Region2.final (V7 m ρ) c).trans ?_)
  show Cert.Sage.lin64 (F := Ideal) (W7 m ρ c (Proc.devRef .tc main_v55)) (W7 m ρ c (Proc.devRef .tc main_v43)) (W7 m ρ c (Proc.devRef .tc main_arg8)) (W7 m ρ c (Proc.devRef .tc main_v56)) (W7 m ρ c (Proc.devRef .tc main_arg10)) = _
  rw [w7_v55, w7_v43, w7_arg8, w7_v56, w7_arg10]
  rfl

theorem w8_arg12 (c : Dev nD) : W8 m ρ c (Proc.devRef .tc main_arg12) = (m ((c : Thread nD τ).loc main_arg12)) :=
  (W8_of_ne m ρ c main_arg12 (by decide)).trans (by
    walk
    rw [W6_of_ne m ρ c main_arg12 (by decide)]
    walk
    rw [W4_of_ne m ρ c main_arg12 (by decide)]
    walk)

theorem w8_arg14 (c : Dev nD) : W8 m ρ c (Proc.devRef .tc main_arg14) = (m ((c : Thread nD τ).loc main_arg14)) :=
  (W8_of_ne m ρ c main_arg14 (by decide)).trans (by
    walk
    rw [W6_of_ne m ρ c main_arg14 (by decide)]
    walk
    rw [W4_of_ne m ρ c main_arg14 (by decide)]
    walk)

/-! ## Before the last region -/

theorem w9_v58 (c : Dev nD) : W9 m ρ c (Proc.devRef .tc main_v58) = Cert.Sage.row64 (F := Ideal) (m ((c : Thread nD τ).loc main_arg12)) := by
  walk
  rw [w8_arg12]
  exact Cert.Sage.row64_eq_reshape _ _

theorem w9_v59 (c : Dev nD) : W9 m ρ c (Proc.devRef .tc main_v59) = Cert.Sage.row1 (F := Ideal) (m ((c : Thread nD τ).loc main_arg14)) := by
  walk
  rw [w8_arg14]
  exact Cert.Sage.row1_eq_reshape _ _

theorem w9_v57 (c : Dev nD) : W9 m ρ c (Proc.devRef .tc main_v57) = h3 m c := by
  walk
  exact w8_v57 m ρ c

theorem w9_arg11 (c : Dev nD) : W9 m ρ c (Proc.devRef .tc main_arg11) = (m ((c : Thread nD τ).loc main_arg11)) := by
  walk
  rw [W8_of_ne m ρ c main_arg11 (by decide)]
  walk
  rw [W6_of_ne m ρ c main_arg11 (by decide)]
  walk
  rw [W4_of_ne m ρ c main_arg11 (by decide)]
  walk

theorem w9_arg13 (c : Dev nD) : W9 m ρ c (Proc.devRef .tc main_arg13) = (m ((c : Thread nD τ).loc main_arg13)) := by
  walk
  rw [W8_of_ne m ρ c main_arg13 (by decide)]
  walk
  rw [W6_of_ne m ρ c main_arg13 (by decide)]
  walk
  rw [W4_of_ne m ρ c main_arg13 (by decide)]
  walk

/-! ## The result -/

/-- The result buffer after the last region is the network function of the launch contents of the arguments. -/
theorem result_eq (c : Dev nD) :
    W10 m ρ c (Proc.devRef .tc main_v60) = Cert.Sage.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W10_arr m ρ c 5).trans ((Cert.KernelIdeal.Region3.final (V9 m ρ) c).trans ?_)
  show Cert.Sage.head (F := Ideal) (W9 m ρ c (Proc.devRef .tc main_v57)) (W9 m ρ c (Proc.devRef .tc main_arg11)) (W9 m ρ c (Proc.devRef .tc main_v58)) (W9 m ρ c (Proc.devRef .tc main_arg13)) (W9 m ρ c (Proc.devRef .tc main_v59)) = _
  rw [w9_v57, w9_arg11, w9_v58, w9_arg13, w9_v59]
  rfl

/-- The kernel program's run with the result named by the network function. -/
theorem run : θ_run defs (onTc (τ := τ) (main (F := Ideal))) ⟨m, fun _ => 0, ρ⟩ fun r => ∀ c : Dev nD,
      r.2.mem ((c.tc : Thread nD τ).loc main_v60) = Cert.Sage.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (result_eq m ρ c), (h c).2⟩) (Cert.KernelIdeal.GenP.run_result (F := Ideal) m ρ)

end Cert.KernelIdeal.Chain

end
-- ==== Proof.RefValue.lean ====
/-
  The reference program's result is the network function of its arguments.

  The reference computes, on the host, three graph layers and the head in the order the network function spells them;
  its composed result term is that function with every step written out, so the two are one term once the function's
  definitions are unfolded.
-/
import proofs.«140905_j59665685676525_1_alg».proof.Proof.RefRun
import proofs.«140905_j59665685676525_1_alg».proof.Proof.Layers

set_option maxRecDepth 16384

noncomputable section

namespace Cert.ReferenceIdeal.RefValue

open Cert.ReferenceIdeal Cert.ReferenceIdeal.Gen Cert.ReferenceIdeal.ValueP Idealize.ShloMosaic Idealize.ShloMosaic.TcCoe Idealize.SL.Sem

variable {F : FTy → Type} [FloatOps F]

/-- The reference's composed result term is the network function of the launch contents of its arguments. -/
theorem res_eq (m : (ℓ : Loc nD τ sig) → Buf (Elt F) ℓ) (c : Dev nD) :
    res_main_v86 (F := F) m c = Cert.Sage.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold res_main_v86 Cert.Sage.net Cert.Sage.step64 Cert.Sage.hidden1 Cert.Sage.head Cert.Sage.lin64 Cert.Sage.lin32 Cert.Sage.relu64 Cert.Sage.mean64 Cert.Sage.mean32
    Cert.Sage.row64 Cert.Sage.row1 Cert.Sage.invDegree Cert.Sage.degree Cert.Sage.srcIdx Cert.Sage.srcRow Cert.Sage.dstIdx Cert.Sage.dstRow
  rfl

/-- The reference's run with the result named by the network function. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = Cert.Sage.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (res_eq m c), (h c).2⟩) (Cert.ReferenceIdeal.ValueP.run (F := F) m ρ)

end Cert.ReferenceIdeal.RefValue

end
-- ==== Proof.lean ====
/-
  The claim: a three-layer GraphSAGE network with a two-layer head on 100000 nodes and 1600000 edges, computed by four
  kernels with the neighbour means formed on the host between them, against the same network written in plain jnp.

  Each graph layer is `max (mean · Wn + b + h · Wr) 0` (the third without the maximum), where `mean` averages the
  features of a node's in-neighbours; the head is `σ (max (h · Wp1 + b1) 0 · Wp2 + b2)`. On the extended reals both
  programs compute one function of their arguments: the kernels' matrix products into zero accumulators are the host's
  products, the changes of float format are the identity, the kernels add the bias after both products where the host
  adds it between them (addition is commutative and associative), and the kernels' logistic function is the host's
  `1 / (1 + e^(-x))`. The host operations that form the means are the same in both programs. No finiteness of the inputs
  is needed.

  The three frames: the two kernel programs run to the end with their arguments unchanged (the generated frames); the
  host program's run gives its frame with the result dropped. The idealized kernel program is the kernel program's own
  text read on the extended reals, so nothing is owed for `preserves`.
-/
import proofs.«140905_j59665685676525_1_alg».proof.Defs
import proofs.«140905_j59665685676525_1_alg».proof.Proof.Gen.Kernel
import proofs.«140905_j59665685676525_1_alg».proof.Proof.Gen.Kernel.Skeleton
import proofs.«140905_j59665685676525_1_alg».proof.Proof.Gen.Kernel.Launch
import proofs.«140905_j59665685676525_1_alg».proof.Proof.Gen.Kernel.Points
import proofs.«140905_j59665685676525_1_alg».proof.Proof.Gen.Kernel.Frame
import proofs.«140905_j59665685676525_1_alg».proof.Proof.Gen.KernelIdeal
import proofs.«140905_j59665685676525_1_alg».proof.Proof.Gen.KernelIdeal.Skeleton
import proofs.«140905_j59665685676525_1_alg».proof.Proof.Gen.KernelIdeal.Launch
import proofs.«140905_j59665685676525_1_alg».proof.Proof.Gen.KernelIdeal.Points
import proofs.«140905_j59665685676525_1_alg».proof.Proof.Gen.KernelIdeal.Frame
import proofs.«140905_j59665685676525_1_alg».proof.Proof.Gen.ReferenceIdeal
import proofs.«140905_j59665685676525_1_alg».proof.Proof.Gen.Pre_finite_inputs
import proofs.«140905_j59665685676525_1_alg».proof.Proof.KernelValue
import proofs.«140905_j59665685676525_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The host program's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the network function of their arguments, and the arguments agree. -/
theorem algebraic : Cert.algebraic_KernelIdeal_ReferenceIdeal := by
  intro m ρ m' ρ' _ hagree
  refine ⟨fun c => Cert.Sage.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), Cert.KernelIdeal.Chain.run m ρ, ?_⟩
  refine (θ_run Cert.ReferenceIdeal.defs _ _).mono (fun _ h c => ⟨(h c).1.trans ?_, (h c).2⟩)
    (Cert.ReferenceIdeal.RefValue.run (F := Ideal) m' ρ')
  obtain ⟨a0, a1, a2, a3, a4, a5, a6, a7, a8, a9, a10, a11, a12, a13, a14⟩ := hagree c
  rw [a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
